-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x522272 : Shape := ⟨2, ![64, 522272]⟩
abbrev S64x8192 : Shape := ⟨2, ![64, 8192]⟩
abbrev S522272 : Shape := ⟨1, ![522272]⟩
abbrev S8192 : Shape := ⟨1, ![8192]⟩
abbrev S_ : Shape := ⟨0, ![]⟩

class Facts : Prop where
  bcast_S_S64x522272 : S_.BroadcastsInDim S64x522272 (![] : Fin 0 → Fin S64x522272.rank)
  reducesTo_S64x522272_S_d0_1 : S64x522272.ReducesTo [0, 1] S_
  h_S_ : 0 < S_.numel
  bcast_S_S64x8192 : S_.BroadcastsInDim S64x8192 (![] : Fin 0 → Fin S64x8192.rank)
  reducesTo_S64x8192_S_d0_1 : S64x8192.ReducesTo [0, 1] S_
  bcast_S_S522272 : S_.BroadcastsInDim S522272 (![] : Fin 0 → Fin S522272.rank)
  reducesTo_S522272_S_d0 : S522272.ReducesTo [0] S_

variable [Facts]

def fn_part1 {F : FTy → Type} [FloatOps F] (main_arg4 : FVec F S64x8192 .f32) (main_arg5 : IVec S522272 32) (main_v13 : IVec S_ 1) (main_v16 : IVec S64x8192 1) : IVec S_ 1 :=
  let main_c_5 : IVec S_ 1 := constantI S_ 1 1#1
  let main_v17 : IVec S_ 1 := (fun x v => Host.reduce IntOp.andi x v reducesTo_S64x8192_S_d0_1 h_S_) main_v16 main_c_5
  let main_v18 : IVec S_ 1 := andi main_v13 main_v17
  let main_v19 : FVec F S64x8192 .f32 := Host.absf main_arg4
  let main_cst_6 : FVec F S_ .f32 := constant S_ .f32 0x7F800000#32
  let main_v20 : FVec F S64x8192 .f32 := broadcastInDim S64x8192 ![] bcast_S_S64x8192 main_cst_6
  let main_v21 : IVec S64x8192 1 := cmpf .olt main_v19 main_v20
  let main_c_7 : IVec S_ 1 := constantI S_ 1 1#1
  let main_v22 : IVec S_ 1 := (fun x v => Host.reduce IntOp.andi x v reducesTo_S64x8192_S_d0_1 h_S_) main_v21 main_c_7
  let main_v23 : IVec S_ 1 := andi main_v18 main_v22
  let main_c_8 : IVec S_ 32 := constantI S_ 32 0#32
  let main_v24 : IVec S522272 32 := broadcastInDim S522272 ![] bcast_S_S522272 main_c_8
  let main_v25 : IVec S522272 1 := cmpi .sge main_arg5 main_v24
  let main_c_9 : IVec S_ 1 := constantI S_ 1 1#1
  let main_v26 : IVec S_ 1 := (fun x v => Host.reduce IntOp.andi x v reducesTo_S522272_S_d0 h_S_) main_v25 main_c_9
  let main_v27 : IVec S_ 1 := andi main_v23 main_v26
  let main_c_10 : IVec S_ 32 := constantI S_ 32 8192#32
  let main_v28 : IVec S522272 32 := broadcastInDim S522272 ![] bcast_S_S522272 main_c_10
  let main_v29 : IVec S522272 1 := cmpi .slt main_arg5 main_v28
  let main_c_11 : IVec S_ 1 := constantI S_ 1 1#1
  let main_v30 : IVec S_ 1 := (fun x v => Host.reduce IntOp.andi x v reducesTo_S522272_S_d0 h_S_) main_v29 main_c_11
  let main_v31 : IVec S_ 1 := andi main_v27 main_v30
  main_v31

def fn {F : FTy → Type} [FloatOps F] (main_arg0 : FVec F S64x522272 .f32) (main_arg1 : FVec F S64x8192 .f32) (main_arg2 : FVec F S64x8192 .f32) (main_arg3 : FVec F S64x8192 .f32) (main_arg4 : FVec F S64x8192 .f32) (main_arg5 : IVec S522272 32) (main_arg6 : IVec S8192 32) : IVec S_ 1 :=
  let main_v0 : FVec F S64x522272 .f32 := Host.absf main_arg0
  let main_cst : FVec F S_ .f32 := constant S_ .f32 0x7F800000#32
  let main_v1 : FVec F S64x522272 .f32 := broadcastInDim S64x522272 ![] bcast_S_S64x522272 main_cst
  let main_v2 : IVec S64x522272 1 := cmpf .olt main_v0 main_v1
  let main_c : IVec S_ 1 := constantI S_ 1 1#1
  let main_v3 : IVec S_ 1 := (fun x v => Host.reduce IntOp.andi x v reducesTo_S64x522272_S_d0_1 h_S_) main_v2 main_c
  let main_v4 : FVec F S64x8192 .f32 := Host.absf main_arg1
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  let main_v9 : FVec F S64x8192 .f32 := Host.absf main_arg2
  let main_cst_2 : FVec F S_ .f32 := constant S_ .f32 0x7F800000#32
  let main_v10 : FVec F S64x8192 .f32 := broadcastInDim S64x8192 ![] bcast_S_S64x8192 main_cst_2
  let main_v11 : IVec S64x8192 1 := cmpf .olt main_v9 main_v10
  let main_c_3 : IVec S_ 1 := constantI S_ 1 1#1
  let main_v12 : IVec S_ 1 := (fun x v => Host.reduce IntOp.andi x v reducesTo_S64x8192_S_d0_1 h_S_) main_v11 main_c_3
  let main_v13 : IVec S_ 1 := andi main_v8 main_v12
  let main_v14 : FVec F S64x8192 .f32 := Host.absf main_arg3
  let main_cst_4 : FVec F S_ .f32 := constant S_ .f32 0x7F800000#32
  let main_v15 : FVec F S64x8192 .f32 := broadcastInDim S64x8192 ![] bcast_S_S64x8192 main_cst_4
  let main_v16 : IVec S64x8192 1 := cmpf .olt main_v14 main_v15
  fn_part1 (F := F) main_arg4 main_arg5 main_v13 main_v16
-- ==== Kernel.lean ====
abbrev S64x522272 : Shape := ⟨2, ![64, 522272]⟩
abbrev S64x8192 : Shape := ⟨2, ![64, 8192]⟩
abbrev S522272 : Shape := ⟨1, ![522272]⟩
abbrev S8192 : Shape := ⟨1, ![8192]⟩
abbrev S_ : Shape := ⟨0, ![]⟩
abbrev S1x8192 : Shape := ⟨2, ![1, 8192]⟩
abbrev S522272x1 : Shape := ⟨2, ![522272, 1]⟩
abbrev S1 : Shape := ⟨1, ![1]⟩
abbrev S1x1 : Shape := ⟨2, ![1, 1]⟩

abbrev nBuf : Space → Nat
  | .hbm => 72
  | .vmem => 8
  | .smem => 0
  | _ => 0

abbrev bufTy : (tb : Table) → Fin (tcTables nBuf tb) → BufTy
  | .hbm, ⟨0, _⟩ => ⟨S64x522272, .f32⟩
  | .hbm, ⟨1, _⟩ => ⟨S64x8192, .f32⟩
  | .hbm, ⟨2, _⟩ => ⟨S64x8192, .f32⟩
  | .hbm, ⟨3, _⟩ => ⟨S64x8192, .f32⟩
  | .hbm, ⟨4, _⟩ => ⟨S64x8192, .f32⟩
  | .hbm, ⟨5, _⟩ => ⟨S522272, .i32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S8192, .f32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S8192, .f32⟩
  | .hbm, ⟨15, _⟩ => ⟨S64x8192, .f32⟩
  | .hbm, ⟨16, _⟩ => ⟨S64x8192, .f32⟩
  | .hbm, ⟨17, _⟩ => ⟨S1x8192, .f32⟩
  | .hbm, ⟨18, _⟩ => ⟨S64x8192, .f32⟩
  | .hbm, ⟨19, _⟩ => ⟨S64x8192, .f32⟩
  | .hbm, ⟨20, _⟩ => ⟨S64x8192, .f32⟩
  | .hbm, ⟨21, _⟩ => ⟨S64x8192, .f32⟩
  | .hbm, ⟨22, _⟩ => ⟨S1x8192, .f32⟩
  | .hbm, ⟨23, _⟩ => ⟨S64x8192, .f32⟩
  | .hbm, ⟨24, _⟩ => ⟨S64x8192, .f32⟩
  | .hbm, ⟨25, _⟩ => ⟨S_, .i32⟩
  | .hbm, ⟨26, _⟩ => ⟨S522272, .i32⟩
  | .hbm, ⟨27, _⟩ => ⟨S522272, .i1⟩
  | .hbm, ⟨28, _⟩ => ⟨S_, .i32⟩
  | .hbm, ⟨29, _⟩ => ⟨S522272, .i32⟩
  | .hbm, ⟨30, _⟩ => ⟨S522272, .i32⟩
  | .hbm, ⟨31, _⟩ => ⟨S522272, .i32⟩
  | .hbm, ⟨32, _⟩ => ⟨S522272x1, .i32⟩
  | .hbm, ⟨33, _⟩ => ⟨S1, .i32⟩
  | .hbm, ⟨34, _⟩ => ⟨S_, .i32⟩
  | .hbm, ⟨35, _⟩ => ⟨S522272x1, .i32⟩
  | .hbm, ⟨36, _⟩ => ⟨S522272x1, .i1⟩
  | .hbm, ⟨37, _⟩ => ⟨S1x1, .i32⟩
  | .hbm, ⟨38, _⟩ => ⟨S522272x1, .i32⟩
  | .hbm, ⟨39, _⟩ => ⟨S522272x1, .i1⟩
  | .hbm, ⟨40, _⟩ => ⟨S522272x1, .i1⟩
  | .hbm, ⟨41, _⟩ => ⟨S_, .i1⟩
  | .hbm, ⟨42, _⟩ => ⟨S522272, .i1⟩
  | .hbm, ⟨43, _⟩ => ⟨S64x522272, .f32⟩
  | .hbm, ⟨44, _⟩ => ⟨S64x522272, .i1⟩
  | .hbm, ⟨45, _⟩ => ⟨S_, .f32⟩
  | .hbm, ⟨46, _⟩ => ⟨S64x522272, .f32⟩
  | .hbm, ⟨47, _⟩ => ⟨S64x522272, .f32⟩
  | .hbm, ⟨48, _⟩ => ⟨S_, .i32⟩
  | .hbm, ⟨49, _⟩ => ⟨S522272, .i32⟩
  | .hbm, ⟨50, _⟩ => ⟨S522272, .i1⟩
  | .hbm, ⟨51, _⟩ => ⟨S_, .i32⟩
  | .hbm, ⟨52, _⟩ => ⟨S522272, .i32⟩
  | .hbm, ⟨53, _⟩ => ⟨S522272, .i32⟩
  | .hbm, ⟨54, _⟩ => ⟨S522272, .i32⟩
  | .hbm, ⟨55, _⟩ => ⟨S522272x1, .i32⟩
  | .hbm, ⟨56, _⟩ => ⟨S1, .i32⟩
  | .hbm, ⟨57, _⟩ => ⟨S_, .i32⟩
  | .hbm, ⟨58, _⟩ => ⟨S522272x1, .i32⟩
  | .hbm, ⟨59, _⟩ => ⟨S522272x1, .i1⟩
  | .hbm, ⟨60, _⟩ => ⟨S1x1, .i32⟩
  | .hbm, ⟨61, _⟩ => ⟨S522272x1, .i32⟩
  | .hbm, ⟨62, _⟩ => ⟨S522272x1, .i1⟩
  | .hbm, ⟨63, _⟩ => ⟨S522272x1, .i1⟩
  | .hbm, ⟨64, _⟩ => ⟨S_, .i1⟩
  | .hbm, ⟨65, _⟩ => ⟨S522272, .i1⟩
  | .hbm, ⟨66, _⟩ => ⟨S64x522272, .f32⟩
  | .hbm, ⟨67, _⟩ => ⟨S64x522272, .i1⟩
  | .hbm, ⟨68, _⟩ => ⟨S_, .f32⟩
  | .hbm, ⟨69, _⟩ => ⟨S64x522272, .f32⟩
  | .hbm, ⟨70, _⟩ => ⟨S64x522272, .f32⟩
  | .hbm, ⟨71, _⟩ => ⟨S64x522272, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | .local _ .vmem, ⟨4, _⟩ => ⟨S64x8192, .f32⟩
  | .local _ .vmem, ⟨5, _⟩ => ⟨S64x8192, .f32⟩
  | .local _ .vmem, ⟨6, _⟩ => ⟨S64x8192, .f32⟩
  | .local _ .vmem, ⟨7, _⟩ => ⟨S64x8192, .f32⟩
  | _, _ => ⟨S64x522272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v16 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v17 : Ref sig .tc := ⟨.hbm, 70, rfl⟩
abbrev main_v18 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  bcast_S_S522272 : S_.BroadcastsInDim S522272 (![] : Fin 0 → Fin S522272.rank)
  bcast_S522272_S522272x1_0 : S522272.BroadcastsInDim S522272x1 (![0] : Fin 1 → Fin S522272x1.rank)
  bcast_S_S522272x1 : S_.BroadcastsInDim S522272x1 (![] : Fin 0 → Fin S522272x1.rank)
  bcast_S1_S1x1_1 : S1.BroadcastsInDim S1x1 (![1] : Fin 1 → Fin S1x1.rank)
  bcast_S1x1_S522272x1_0_1 : S1x1.BroadcastsInDim S522272x1 (![0, 1] : Fin 2 → Fin S522272x1.rank)
  reducesTo_S522272x1_S522272_d1 : S522272x1.ReducesTo [1] S522272
  h_S_ : 0 < S_.numel
  bcast_S522272_S64x522272_1 : S522272.BroadcastsInDim S64x522272 (![1] : Fin 1 → Fin S64x522272.rank)
  bcast_S_S64x522272 : S_.BroadcastsInDim S64x522272 (![] : Fin 0 → Fin S64x522272.rank)
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  gather_S64x8192_S522272x1_S64x522272_0_1_n_n_1_1_641_wf : GatherDims.WF S64x8192 S522272x1 S64x522272 [0] [1] [] [1] [] 1 ![64, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x8192.size a < S64x522272.size a
  hwx0_0 : ∀ i : grid0.Coords, EltTy.bits .f32 = 32 ∨ (Rect.unit (s := S64x522272) (fun a => cc0_transform_0 i a * S64x8192.size a) (fun a => (Pipeline.Clip.of (cc0_transform_0 i a) (S64x8192.size a) (S64x522272.size a)).extent (S64x8192.size a)) fun a => Pipeline.Clip.inb (Pipeline.Clip.ok_of (hstart0_0 i a))).WholeWords (EltTy.packing .f32)
  hwxs0_0 : ∀ i : grid0.Coords, EltTy.bits .f32 = 32 ∨ (Rect.unit (s := S64x8192) (fun _ => 0) (fun a => (Pipeline.Clip.of (cc0_transform_0 i a) (S64x8192.size a) (S64x522272.size a)).extent (S64x8192.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x8192.size a < S64x522272.size a
  hwx0_1 : ∀ i : grid0.Coords, EltTy.bits .f32 = 32 ∨ (Rect.unit (s := S64x522272) (fun a => cc0_transform_1 i a * S64x8192.size a) (fun a => (Pipeline.Clip.of (cc0_transform_1 i a) (S64x8192.size a) (S64x522272.size a)).extent (S64x8192.size a)) fun a => Pipeline.Clip.inb (Pipeline.Clip.ok_of (hstart0_1 i a))).WholeWords (EltTy.packing .f32)
  hwxs0_1 : ∀ i : grid0.Coords, EltTy.bits .f32 = 32 ∨ (Rect.unit (s := S64x8192) (fun _ => 0) (fun a => (Pipeline.Clip.of (cc0_transform_1 i a) (S64x8192.size a) (S64x522272.size a)).extent (S64x8192.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S64x8192.size a < S64x522272.size a
  hwx0_2 : ∀ i : grid0.Coords, EltTy.bits .f32 = 32 ∨ (Rect.unit (s := S64x522272) (fun a => cc0_transform_2 i a * S64x8192.size a) (fun a => (Pipeline.Clip.of (cc0_transform_2 i a) (S64x8192.size a) (S64x522272.size a)).extent (S64x8192.size a)) fun a => Pipeline.Clip.inb (Pipeline.Clip.ok_of (hstart0_2 i a))).WholeWords (EltTy.packing .f32)
  hwxs0_2 : ∀ i : grid0.Coords, EltTy.bits .f32 = 32 ∨ (Rect.unit (s := S64x8192) (fun _ => 0) (fun a => (Pipeline.Clip.of (cc0_transform_2 i a) (S64x8192.size a) (S64x522272.size a)).extent (S64x8192.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S64x8192.size a < S64x522272.size a
  hwx0_3 : ∀ i : grid0.Coords, EltTy.bits .f32 = 32 ∨ (Rect.unit (s := S64x522272) (fun a => cc0_transform_3 i a * S64x8192.size a) (fun a => (Pipeline.Clip.of (cc0_transform_3 i a) (S64x8192.size a) (S64x522272.size a)).extent (S64x8192.size a)) fun a => Pipeline.Clip.inb (Pipeline.Clip.ok_of (hstart0_3 i a))).WholeWords (EltTy.packing .f32)
  hwxs0_3 : ∀ i : grid0.Coords, EltTy.bits .f32 = 32 ∨ (Rect.unit (s := S64x8192) (fun _ => 0) (fun a => (Pipeline.Clip.of (cc0_transform_3 i a) (S64x8192.size a) (S64x522272.size a)).extent (S64x8192.size a)) fun a => (Nat.zero_add _).trans_le (Pipeline.Clip.extent_le (Pipeline.Clip.ok_of (hstart0_3 i a)))).WholeWords (EltTy.packing .f32)

variable [Facts₀]

def gather_S64x8192_S522272x1_S64x522272_0_1_n_n_1_1_641 : GatherDims S64x8192 S522272x1 S64x522272 where
  offsetDims := [0]
  collapsedSliceDims := [1]
  operandBatchingDims := []
  startIndicesBatchingDims := []
  startIndexMap := [1]
  indexVectorDim := 1
  sliceSizes := ![64, 1]
  wf := gather_S64x8192_S522272x1_S64x522272_0_1_n_n_1_1_641_wf

abbrev win0_0 : Pipeline.Window sig grid0 :=
  Pipeline.Window.ofSpecClip (Memref.whole main_arg0) S64x8192.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v16) S64x8192.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v17) S64x8192.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v18) S64x8192.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x522272 : Shape := ⟨2, ![64, 522272]⟩
abbrev S64x8192 : Shape := ⟨2, ![64, 8192]⟩
abbrev S522272 : Shape := ⟨1, ![522272]⟩
abbrev S8192 : Shape := ⟨1, ![8192]⟩
abbrev S_ : Shape := ⟨0, ![]⟩
abbrev S1x8192 : Shape := ⟨2, ![1, 8192]⟩
abbrev S522272x1 : Shape := ⟨2, ![522272, 1]⟩

abbrev nBuf : Space → Nat
  | .hbm => 45
  | .vmem => 0
  | .smem => 0
  | _ => 0

abbrev bufTy : (tb : Table) → Fin (tcTables nBuf tb) → BufTy
  | .hbm, ⟨0, _⟩ => ⟨S64x522272, .f32⟩
  | .hbm, ⟨1, _⟩ => ⟨S64x8192, .f32⟩
  | .hbm, ⟨2, _⟩ => ⟨S64x8192, .f32⟩
  | .hbm, ⟨3, _⟩ => ⟨S64x8192, .f32⟩
  | .hbm, ⟨4, _⟩ => ⟨S64x8192, .f32⟩
  | .hbm, ⟨5, _⟩ => ⟨S522272, .i32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S8192, .f32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S8192, .f32⟩
  | .hbm, ⟨15, _⟩ => ⟨S64x8192, .f32⟩
  | .hbm, ⟨16, _⟩ => ⟨S64x8192, .f32⟩
  | .hbm, ⟨17, _⟩ => ⟨S1x8192, .f32⟩
  | .hbm, ⟨18, _⟩ => ⟨S64x8192, .f32⟩
  | .hbm, ⟨19, _⟩ => ⟨S64x8192, .f32⟩
  | .hbm, ⟨20, _⟩ => ⟨S64x8192, .f32⟩
  | .hbm, ⟨21, _⟩ => ⟨S64x8192, .f32⟩
  | .hbm, ⟨22, _⟩ => ⟨S1x8192, .f32⟩
  | .hbm, ⟨23, _⟩ => ⟨S64x8192, .f32⟩
  | .hbm, ⟨24, _⟩ => ⟨S64x8192, .f32⟩
  | .hbm, ⟨25, _⟩ => ⟨S_, .i32⟩
  | .hbm, ⟨26, _⟩ => ⟨S522272, .i32⟩
  | .hbm, ⟨27, _⟩ => ⟨S522272, .i1⟩
  | .hbm, ⟨28, _⟩ => ⟨S_, .i32⟩
  | .hbm, ⟨29, _⟩ => ⟨S522272, .i32⟩
  | .hbm, ⟨30, _⟩ => ⟨S522272, .i32⟩
  | .hbm, ⟨31, _⟩ => ⟨S522272, .i32⟩
  | .hbm, ⟨32, _⟩ => ⟨S522272x1, .i32⟩
  | .hbm, ⟨33, _⟩ => ⟨S64x522272, .f32⟩
  | .hbm, ⟨34, _⟩ => ⟨S64x522272, .f32⟩
  | .hbm, ⟨35, _⟩ => ⟨S_, .i32⟩
  | .hbm, ⟨36, _⟩ => ⟨S522272, .i32⟩
  | .hbm, ⟨37, _⟩ => ⟨S522272, .i1⟩
  | .hbm, ⟨38, _⟩ => ⟨S_, .i32⟩
  | .hbm, ⟨39, _⟩ => ⟨S522272, .i32⟩
  | .hbm, ⟨40, _⟩ => ⟨S522272, .i32⟩
  | .hbm, ⟨41, _⟩ => ⟨S522272, .i32⟩
  | .hbm, ⟨42, _⟩ => ⟨S522272x1, .i32⟩
  | .hbm, ⟨43, _⟩ => ⟨S64x522272, .f32⟩
  | .hbm, ⟨44, _⟩ => ⟨S64x522272, .f32⟩
  | _, _ => ⟨S64x522272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  bcast_S_S522272 : S_.BroadcastsInDim S522272 (![] : Fin 0 → Fin S522272.rank)
  bcast_S522272_S522272x1_0 : S522272.BroadcastsInDim S522272x1 (![0] : Fin 1 → Fin S522272x1.rank)
  gather_S64x8192_S522272x1_S64x522272_0_1_n_n_1_1_641_wf : GatherDims.WF S64x8192 S522272x1 S64x522272 [0] [1] [] [1] [] 1 ![64, 1]

variable [Facts₀]

def gather_S64x8192_S522272x1_S64x522272_0_1_n_n_1_1_641 : GatherDims S64x8192 S522272x1 S64x522272 where
  offsetDims := [0]
  collapsedSliceDims := [1]
  operandBatchingDims := []
  startIndicesBatchingDims := []
  startIndexMap := [1]
  indexVectorDim := 1
  sliceSizes := ![64, 1]
  wf := gather_S64x8192_S522272x1_S64x522272_0_1_n_n_1_1_641_wf

class Facts : Prop extends Facts₀ where

variable [Facts]
-- ==== Proof.FmaFrameBits.lean ====
/-
  The frame of the tiled multiply-add, at any float instance.

  The program computes two per-measurement weight rows on the host, then one pallas_call streams the
  (64, 522272) arrays in 64 tiles of (64, 8192) lanes: at grid point `t` the three input tiles (the data `x`, the
  intercept weights `b`, the slope weights `s`) are fetched, the body forms `x · s + b` lane by lane over the
  WHOLE tile and stores it, and the tile is written back. 64 · 8192 = 524288 exceeds 522272, so the last tile
  overhangs each array by 2016 lanes: its fetch lands only the 6176 lanes inside the array (the rest of the
  staging tile holds words nobody names) and its write-back writes only those lanes. The body still computes on
  the whole tile; on the overhanging lanes it combines unnamed words into unnamed words, which no transfer moves.

  So every window is described only on the lanes its transfer moves: after the body at point `t` an input's
  staging tile holds the array's block there, and the result's holds the lane-wise `x · s + b` of the three
  blocks. From that description the pipeline's run gives: the program terminates, nothing faults, the three
  streamed arrays and every other buffer are as the region found them, and the result array is what the
  write-backs leave.
-/
import proofs.«421988_j64080912056938_2_alg».proof.Proof.Gen.Kernel.Frame
import proofs.«421988_j64080912056938_2_alg».proof.Proof.Gen.Kernel.Skeleton
import Idealize.ShloMosaic.Lib.Pipeline.Value

set_option maxRecDepth 16384

noncomputable section

namespace Cert.Kernel.Fma

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One tile -/

/-- The whole (64, 8192) tile as the rectangle every access of the body goes through: offsets zero, the tile's own sizes. -/
abbrev tile : Rect S64x8192 := Rect.unit (s := S64x8192) ![0, 0] S64x8192.size inb_S64x8192_S64x8192_0_0

theorem tile_off : (![0, 0] : Fin 2 → Nat) = fun _ => 0 := funext fun a => by fin_cases a <;> rfl

/-- The multiply-add of three tiles, lane by lane: `x · s + b`. -/
def fma (x b s : Vec F S64x8192 .f32) : Vec F S64x8192 .f32 :=
  fun j => FloatOps.addf (FloatOps.mulf (x j) (s j)) (b j)

/-- The body's one store, as the run leaves it: the stored value over what the three loads read, written through the
    whole-tile rectangle. -/
def stored (x b s : Vec F S64x8192 .f32) : Vec F S64x8192 .f32 :=
  View.canon [⟨tile, k0_pay1 (View.ld x tile) (View.ld s tile) (View.ld b tile)⟩]

/-- A whole-tile load reads the tile, a whole-tile store leaves its value, and the two shape casts of the body are
    between equal shapes: what is stored is the lane-wise multiply-add. -/
theorem stored_eq (x b s : Vec F S64x8192 .f32) : stored x b s = fma x b s := by
  unfold stored
  rw [View.canon_unit_zero tile_off]
  simp only [View.ld_unit_zero (S := S64x8192) tile_off]
  unfold k0_pay1 fma
  simp only [shapeCast_self]
  rfl

/-! ## The body -/

set_option maxHeartbeats 1000000 in
/-- The body on four whole staging tiles, the inputs' holding `x`, `b`, `s` and the result's anything: it loads the
    three, loads the result's tile (a value it never uses), stores the multiply-add over the whole result tile, and
    returns with the inputs' tiles as they were. -/
theorem sound_kernel (c : Dev nD) (E : Set ℕ) (i : grid0.Coords)
    (arg1 : Memref sig .tc .vmem S64x8192 .f32) (harg1 : arg1.IsWhole) (arg2 : Memref sig .tc .vmem S64x8192 .f32) (harg2 : arg2.IsWhole)
    (arg3 : Memref sig .tc .vmem S64x8192 .f32) (harg3 : arg3.IsWhole) (arg4 : Memref sig .tc .vmem S64x8192 .f32) (harg4 : arg4.IsWhole)
    (x b s : Vec F S64x8192 .f32) (K : PUnit → sProp 𝕄) :
    iprop(owns (c : Thread nD τ) arg1 fullShare x ∗ owns (c : Thread nD τ) arg2 fullShare b ∗ owns (c : Thread nD τ) arg3 fullShare s
        ∗ (∃ d, owns (c : Thread nD τ) arg4 fullShare d)
        ∗ (iprop(owns (c : Thread nD τ) arg1 fullShare x ∗ owns (c : Thread nD τ) arg2 fullShare b ∗ owns (c : Thread nD τ) arg3 fullShare s
              ∗ owns (c : Thread nD τ) arg4 fullShare (fma x b s)) -∗ K ⟨⟩))
      ⊢ wp frame (wpE (defs₀ (F := F)) Variants.none c none) E (cc0__fma_kernel i arg1 harg1 arg2 harg2 arg3 harg3 arg4 harg4) K := by
  simp only [cc0__fma_kernel_eq_skeleton]; unfold cc0__fma_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [← stored_eq]
  exact View.read_writes_eq_canon _ _ _ (fun y => ⟨_, List.mem_singleton_self _, View.mem_set_unit_zero tile_off inb_S64x8192_S64x8192_0_0 y⟩)

/-! ## What the staging tiles hold -/

/-- A tile of zero words: what the description below puts on the lanes no transfer moves (nothing reads it). -/
def zeros : S64x8192.Idx → Elt F .f32 := fun _ => Scalar.ofBits .f32 0#32

/-- The data tile at point `t` as the description names it: the array's block there on the lanes inside the array. -/
def xTile (c : Dev nD) (t : Fin cfg0.N) : S64x8192.Idx → Elt F .f32 :=
  (cfg0.win 0).fill (cfg0.grid.coords t) zeros (iblk m c 0 t)
/-- The intercept-weight tile likewise, -/
def bTile (c : Dev nD) (t : Fin cfg0.N) : S64x8192.Idx → Elt F .f32 :=
  (cfg0.win 1).fill (cfg0.grid.coords t) zeros (iblk m c 1 t)
/-- and the slope-weight tile. -/
def sTile (c : Dev nD) (t : Fin cfg0.N) : S64x8192.Idx → Elt F .f32 :=
  (cfg0.win 2).fill (cfg0.grid.coords t) zeros (iblk m c 2 t)

/-- The pipeline's description on core `c`: the four arrays as the region finds them; after the body at point `t` the
    three input tiles at their blocks and the result tile at their multiply-add; no scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xTile m c t
    | ⟨1, _⟩ => bTile m c t
    | ⟨2, _⟩ => sTile m c t
    | ⟨3, _⟩ => fma (xTile m c t) (bTile m c t) (sTile m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = xTile m c t := by dsimp only [dats]
theorem after_b (c : Dev nD) (t : Fin cfg0.N) : (dats m 0 c).after 1 t = bTile m c t := by dsimp only [dats]
theorem after_s (c : Dev nD) (t : Fin cfg0.N) : (dats m 0 c).after 2 t = sTile m c t := by dsimp only [dats]
theorem after_o (c : Dev nD) (t : Fin cfg0.N) :
    (dats m 0 c).after 3 t = fma (xTile m c t) (bTile m c t) (sTile m c t) := by dsimp only [dats]

/-- Every input window is fetched at every point, so the body finds its tile just fetched: the block on the lanes the
    fetch lands, whatever was there (`d`) on the others. -/
theorem before_x (c : Dev nD) (t : Fin cfg0.N) (d) :
    (dats m 0 c).before 0 t d = (cfg0.win 0).fill (cfg0.grid.coords t) d (iblk m c 0 t) := by
  unfold Dat.before; rw [if_pos (fetch0_0 t)]; unfold Dat.fetched Dat.blockOf iblk; rw [A_eq]
theorem before_b (c : Dev nD) (t : Fin cfg0.N) (d) :
    (dats m 0 c).before 1 t d = (cfg0.win 1).fill (cfg0.grid.coords t) d (iblk m c 1 t) := by
  unfold Dat.before; rw [if_pos (fetch0_1 t)]; unfold Dat.fetched Dat.blockOf iblk; rw [A_eq]
theorem before_s (c : Dev nD) (t : Fin cfg0.N) (d) :
    (dats m 0 c).before 2 t d = (cfg0.win 2).fill (cfg0.grid.coords t) d (iblk m c 2 t) := by
  unfold Dat.before; rw [if_pos (fetch0_2 t)]; unfold Dat.fetched Dat.blockOf iblk; rw [A_eq]

/-- On a lane the result's write-back moves, a fetched input tile holds its block's word whatever fills the rest: the four
    windows cut their tiles alike (one tile shape, one index map up to its name), so the lane is one the fetch landed. -/
theorem fill_x_at (t : Fin cfg0.N) (d : S64x8192.Idx → Elt F .f32) (g : ((cfg0.win 0).xblock (cfg0.grid.coords t)).Idx → Elt F .f32)
    (j : ((cfg0.win 3).xblock (cfg0.grid.coords t)).Idx) :
    (cfg0.win 0).fill (cfg0.grid.coords t) d g ((cfg0.win 3).xinj (cfg0.grid.coords t) j) = g j :=
  (cfg0.win 0).fill_xinj (cfg0.grid.coords t) d g j
theorem fill_b_at (t : Fin cfg0.N) (d : S64x8192.Idx → Elt F .f32) (g : ((cfg0.win 1).xblock (cfg0.grid.coords t)).Idx → Elt F .f32)
    (j : ((cfg0.win 3).xblock (cfg0.grid.coords t)).Idx) :
    (cfg0.win 1).fill (cfg0.grid.coords t) d g ((cfg0.win 3).xinj (cfg0.grid.coords t) j) = g j :=
  (cfg0.win 1).fill_xinj (cfg0.grid.coords t) d g j
theorem fill_s_at (t : Fin cfg0.N) (d : S64x8192.Idx → Elt F .f32) (g : ((cfg0.win 2).xblock (cfg0.grid.coords t)).Idx → Elt F .f32)
    (j : ((cfg0.win 3).xblock (cfg0.grid.coords t)).Idx) :
    (cfg0.win 2).fill (cfg0.grid.coords t) d g ((cfg0.win 3).xinj (cfg0.grid.coords t) j) = g j :=
  (cfg0.win 2).fill_xinj (cfg0.grid.coords t) d g j

/-- What the result's write-back at point `t` moves out of a tile computed from fetched input tiles: the multiply-add of
    the three blocks, lane by lane, whatever filled the inputs' other lanes. -/
theorem cut_fma (c : Dev nD) (t : Fin cfg0.N) (d0 d1 d2 : S64x8192.Idx → Elt F .f32) :
    (cfg0.win 3).cut (cfg0.grid.coords t)
        (fma ((cfg0.win 0).fill (cfg0.grid.coords t) d0 (iblk m c 0 t)) ((cfg0.win 1).fill (cfg0.grid.coords t) d1 (iblk m c 1 t))
          ((cfg0.win 2).fill (cfg0.grid.coords t) d2 (iblk m c 2 t)))
      = fun j => FloatOps.addf (FloatOps.mulf (iblk m c 0 t j) (iblk m c 2 t j)) (iblk m c 1 t j) := by
  funext j
  show FloatOps.addf (FloatOps.mulf _ _) _ = _
  rw [fill_x_at, fill_b_at, fill_s_at]

/-! ## The body obligation -/

set_option maxHeartbeats 1000000 in
/-- At every point the body, called on the current staging tiles, meets the description: the three inputs arrive just
    fetched and leave untouched, so on the lanes their fetch landed they hold their blocks; the result tile leaves at the
    multiply-add of the three whole tiles, which on the lanes its write-back moves is the multiply-add of the blocks. -/
theorem body_obligation (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_x m c t d0, before_b m c t d1, before_s m c t d2]
  iapply (sound_kernel (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    ((cfg0.win 0).fill (cfg0.grid.coords t) d0 (iblk m c 0 t)) ((cfg0.win 1).fill (cfg0.grid.coords t) d1 (iblk m c 1 t))
    ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0; rw [after_x]; unfold xTile; rw [Window.cut_fill]; iexact H0
  isplitl [H1]
  · iexists d1; rw [after_b]; unfold bTile; rw [Window.cut_fill]; iexact H1
  isplitl [H2]
  · iexists d2; rw [after_s]; unfold sTile; rw [Window.cut_fill]; iexact H2
  · iexists fma ((cfg0.win 0).fill (cfg0.grid.coords t) d0 (iblk m c 0 t)) ((cfg0.win 1).fill (cfg0.grid.coords t) d1 (iblk m c 1 t))
      ((cfg0.win 2).fill (cfg0.grid.coords t) d2 (iblk m c 2 t))
    rw [after_o]; unfold xTile bTile sTile
    rw [(cfg0.win 3).fill_congr_cut (cfg0.grid.coords t) ((cut_fma m c t d0 d1 d2).trans (cut_fma m c t zeros zeros zeros).symm)]
    iexact H3

/-! ## The run -/

set_option backward.isDefEq.respectTransparency.types false in
/-- From any memory with zero semaphore counters every weakly fair execution of the program terminates without a fault;
    each streamed array ends as the write-backs leave it and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- info: 'Cert.Kernel.Fma.run_main' depends on axioms: [propext, Classical.choice, Quot.sound] -/
#guard_msgs in #print axioms run_main

end Cert.Kernel.Fma

end
-- ==== Proof.FmaFrameIdeal.lean ====
/-
  The frame of the tiled multiply-add, at any float instance.

  The program computes two per-measurement weight rows on the host, then one pallas_call streams the
  (64, 522272) arrays in 64 tiles of (64, 8192) lanes: at grid point `t` the three input tiles (the data `x`, the
  intercept weights `b`, the slope weights `s`) are fetched, the body forms `x · s + b` lane by lane over the
  WHOLE tile and stores it, and the tile is written back. 64 · 8192 = 524288 exceeds 522272, so the last tile
  overhangs each array by 2016 lanes: its fetch lands only the 6176 lanes inside the array (the rest of the
  staging tile holds words nobody names) and its write-back writes only those lanes. The body still computes on
  the whole tile; on the overhanging lanes it combines unnamed words into unnamed words, which no transfer moves.

  So every window is described only on the lanes its transfer moves: after the body at point `t` an input's
  staging tile holds the array's block there, and the result's holds the lane-wise `x · s + b` of the three
  blocks. From that description the pipeline's run gives: the program terminates, nothing faults, the three
  streamed arrays and every other buffer are as the region found them, and the result array is what the
  write-backs leave.
-/
import proofs.«421988_j64080912056938_2_alg».proof.Proof.Gen.KernelIdeal.Frame
import proofs.«421988_j64080912056938_2_alg».proof.Proof.Gen.KernelIdeal.Skeleton
import Idealize.ShloMosaic.Lib.Pipeline.Value

set_option maxRecDepth 16384

noncomputable section

namespace Cert.KernelIdeal.Fma

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One tile -/

/-- The whole (64, 8192) tile as the rectangle every access of the body goes through: offsets zero, the tile's own sizes. -/
abbrev tile : Rect S64x8192 := Rect.unit (s := S64x8192) ![0, 0] S64x8192.size inb_S64x8192_S64x8192_0_0

theorem tile_off : (![0, 0] : Fin 2 → Nat) = fun _ => 0 := funext fun a => by fin_cases a <;> rfl

/-- The multiply-add of three tiles, lane by lane: `x · s + b`. -/
def fma (x b s : Vec F S64x8192 .f32) : Vec F S64x8192 .f32 :=
  fun j => FloatOps.addf (FloatOps.mulf (x j) (s j)) (b j)

/-- The body's one store, as the run leaves it: the stored value over what the three loads read, written through the
    whole-tile rectangle. -/
def stored (x b s : Vec F S64x8192 .f32) : Vec F S64x8192 .f32 :=
  View.canon [⟨tile, k0_pay1 (View.ld x tile) (View.ld s tile) (View.ld b tile)⟩]

/-- A whole-tile load reads the tile, a whole-tile store leaves its value, and the two shape casts of the body are
    between equal shapes: what is stored is the lane-wise multiply-add. -/
theorem stored_eq (x b s : Vec F S64x8192 .f32) : stored x b s = fma x b s := by
  unfold stored
  rw [View.canon_unit_zero tile_off]
  simp only [View.ld_unit_zero (S := S64x8192) tile_off]
  unfold k0_pay1 fma
  simp only [shapeCast_self]
  rfl

/-! ## The body -/

set_option maxHeartbeats 1000000 in
/-- The body on four whole staging tiles, the inputs' holding `x`, `b`, `s` and the result's anything: it loads the
    three, loads the result's tile (a value it never uses), stores the multiply-add over the whole result tile, and
    returns with the inputs' tiles as they were. -/
theorem sound_kernel (c : Dev nD) (E : Set ℕ) (i : grid0.Coords)
    (arg1 : Memref sig .tc .vmem S64x8192 .f32) (harg1 : arg1.IsWhole) (arg2 : Memref sig .tc .vmem S64x8192 .f32) (harg2 : arg2.IsWhole)
    (arg3 : Memref sig .tc .vmem S64x8192 .f32) (harg3 : arg3.IsWhole) (arg4 : Memref sig .tc .vmem S64x8192 .f32) (harg4 : arg4.IsWhole)
    (x b s : Vec F S64x8192 .f32) (K : PUnit → sProp 𝕄) :
    iprop(owns (c : Thread nD τ) arg1 fullShare x ∗ owns (c : Thread nD τ) arg2 fullShare b ∗ owns (c : Thread nD τ) arg3 fullShare s
        ∗ (∃ d, owns (c : Thread nD τ) arg4 fullShare d)
        ∗ (iprop(owns (c : Thread nD τ) arg1 fullShare x ∗ owns (c : Thread nD τ) arg2 fullShare b ∗ owns (c : Thread nD τ) arg3 fullShare s
              ∗ owns (c : Thread nD τ) arg4 fullShare (fma x b s)) -∗ K ⟨⟩))
      ⊢ wp frame (wpE (defs₀ (F := F)) Variants.none c none) E (cc0__fma_kernel i arg1 harg1 arg2 harg2 arg3 harg3 arg4 harg4) K := by
  simp only [cc0__fma_kernel_eq_skeleton]; unfold cc0__fma_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [← stored_eq]
  exact View.read_writes_eq_canon _ _ _ (fun y => ⟨_, List.mem_singleton_self _, View.mem_set_unit_zero tile_off inb_S64x8192_S64x8192_0_0 y⟩)

/-! ## What the staging tiles hold -/

/-- A tile of zero words: what the description below puts on the lanes no transfer moves (nothing reads it). -/
def zeros : S64x8192.Idx → Elt F .f32 := fun _ => Scalar.ofBits .f32 0#32

/-- The data tile at point `t` as the description names it: the array's block there on the lanes inside the array. -/
def xTile (c : Dev nD) (t : Fin cfg0.N) : S64x8192.Idx → Elt F .f32 :=
  (cfg0.win 0).fill (cfg0.grid.coords t) zeros (iblk m c 0 t)
/-- The intercept-weight tile likewise, -/
def bTile (c : Dev nD) (t : Fin cfg0.N) : S64x8192.Idx → Elt F .f32 :=
  (cfg0.win 1).fill (cfg0.grid.coords t) zeros (iblk m c 1 t)
/-- and the slope-weight tile. -/
def sTile (c : Dev nD) (t : Fin cfg0.N) : S64x8192.Idx → Elt F .f32 :=
  (cfg0.win 2).fill (cfg0.grid.coords t) zeros (iblk m c 2 t)

/-- The pipeline's description on core `c`: the four arrays as the region finds them; after the body at point `t` the
    three input tiles at their blocks and the result tile at their multiply-add; no scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xTile m c t
    | ⟨1, _⟩ => bTile m c t
    | ⟨2, _⟩ => sTile m c t
    | ⟨3, _⟩ => fma (xTile m c t) (bTile m c t) (sTile m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = xTile m c t := by dsimp only [dats]
theorem after_b (c : Dev nD) (t : Fin cfg0.N) : (dats m 0 c).after 1 t = bTile m c t := by dsimp only [dats]
theorem after_s (c : Dev nD) (t : Fin cfg0.N) : (dats m 0 c).after 2 t = sTile m c t := by dsimp only [dats]
theorem after_o (c : Dev nD) (t : Fin cfg0.N) :
    (dats m 0 c).after 3 t = fma (xTile m c t) (bTile m c t) (sTile m c t) := by dsimp only [dats]

/-- Every input window is fetched at every point, so the body finds its tile just fetched: the block on the lanes the
    fetch lands, whatever was there (`d`) on the others. -/
theorem before_x (c : Dev nD) (t : Fin cfg0.N) (d) :
    (dats m 0 c).before 0 t d = (cfg0.win 0).fill (cfg0.grid.coords t) d (iblk m c 0 t) := by
  unfold Dat.before; rw [if_pos (fetch0_0 t)]; unfold Dat.fetched Dat.blockOf iblk; rw [A_eq]
theorem before_b (c : Dev nD) (t : Fin cfg0.N) (d) :
    (dats m 0 c).before 1 t d = (cfg0.win 1).fill (cfg0.grid.coords t) d (iblk m c 1 t) := by
  unfold Dat.before; rw [if_pos (fetch0_1 t)]; unfold Dat.fetched Dat.blockOf iblk; rw [A_eq]
theorem before_s (c : Dev nD) (t : Fin cfg0.N) (d) :
    (dats m 0 c).before 2 t d = (cfg0.win 2).fill (cfg0.grid.coords t) d (iblk m c 2 t) := by
  unfold Dat.before; rw [if_pos (fetch0_2 t)]; unfold Dat.fetched Dat.blockOf iblk; rw [A_eq]

/-- On a lane the result's write-back moves, a fetched input tile holds its block's word whatever fills the rest: the four
    windows cut their tiles alike (one tile shape, one index map up to its name), so the lane is one the fetch landed. -/
theorem fill_x_at (t : Fin cfg0.N) (d : S64x8192.Idx → Elt F .f32) (g : ((cfg0.win 0).xblock (cfg0.grid.coords t)).Idx → Elt F .f32)
    (j : ((cfg0.win 3).xblock (cfg0.grid.coords t)).Idx) :
    (cfg0.win 0).fill (cfg0.grid.coords t) d g ((cfg0.win 3).xinj (cfg0.grid.coords t) j) = g j :=
  (cfg0.win 0).fill_xinj (cfg0.grid.coords t) d g j
theorem fill_b_at (t : Fin cfg0.N) (d : S64x8192.Idx → Elt F .f32) (g : ((cfg0.win 1).xblock (cfg0.grid.coords t)).Idx → Elt F .f32)
    (j : ((cfg0.win 3).xblock (cfg0.grid.coords t)).Idx) :
    (cfg0.win 1).fill (cfg0.grid.coords t) d g ((cfg0.win 3).xinj (cfg0.grid.coords t) j) = g j :=
  (cfg0.win 1).fill_xinj (cfg0.grid.coords t) d g j
theorem fill_s_at (t : Fin cfg0.N) (d : S64x8192.Idx → Elt F .f32) (g : ((cfg0.win 2).xblock (cfg0.grid.coords t)).Idx → Elt F .f32)
    (j : ((cfg0.win 3).xblock (cfg0.grid.coords t)).Idx) :
    (cfg0.win 2).fill (cfg0.grid.coords t) d g ((cfg0.win 3).xinj (cfg0.grid.coords t) j) = g j :=
  (cfg0.win 2).fill_xinj (cfg0.grid.coords t) d g j

/-- What the result's write-back at point `t` moves out of a tile computed from fetched input tiles: the multiply-add of
    the three blocks, lane by lane, whatever filled the inputs' other lanes. -/
theorem cut_fma (c : Dev nD) (t : Fin cfg0.N) (d0 d1 d2 : S64x8192.Idx → Elt F .f32) :
    (cfg0.win 3).cut (cfg0.grid.coords t)
        (fma ((cfg0.win 0).fill (cfg0.grid.coords t) d0 (iblk m c 0 t)) ((cfg0.win 1).fill (cfg0.grid.coords t) d1 (iblk m c 1 t))
          ((cfg0.win 2).fill (cfg0.grid.coords t) d2 (iblk m c 2 t)))
      = fun j => FloatOps.addf (FloatOps.mulf (iblk m c 0 t j) (iblk m c 2 t j)) (iblk m c 1 t j) := by
  funext j
  show FloatOps.addf (FloatOps.mulf _ _) _ = _
  rw [fill_x_at, fill_b_at, fill_s_at]

/-! ## The body obligation -/

set_option maxHeartbeats 1000000 in
/-- At every point the body, called on the current staging tiles, meets the description: the three inputs arrive just
    fetched and leave untouched, so on the lanes their fetch landed they hold their blocks; the result tile leaves at the
    multiply-add of the three whole tiles, which on the lanes its write-back moves is the multiply-add of the blocks. -/
theorem body_obligation (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_x m c t d0, before_b m c t d1, before_s m c t d2]
  iapply (sound_kernel (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    ((cfg0.win 0).fill (cfg0.grid.coords t) d0 (iblk m c 0 t)) ((cfg0.win 1).fill (cfg0.grid.coords t) d1 (iblk m c 1 t))
    ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0; rw [after_x]; unfold xTile; rw [Window.cut_fill]; iexact H0
  isplitl [H1]
  · iexists d1; rw [after_b]; unfold bTile; rw [Window.cut_fill]; iexact H1
  isplitl [H2]
  · iexists d2; rw [after_s]; unfold sTile; rw [Window.cut_fill]; iexact H2
  · iexists fma ((cfg0.win 0).fill (cfg0.grid.coords t) d0 (iblk m c 0 t)) ((cfg0.win 1).fill (cfg0.grid.coords t) d1 (iblk m c 1 t))
      ((cfg0.win 2).fill (cfg0.grid.coords t) d2 (iblk m c 2 t))
    rw [after_o]; unfold xTile bTile sTile
    rw [(cfg0.win 3).fill_congr_cut (cfg0.grid.coords t) ((cut_fma m c t d0 d1 d2).trans (cut_fma m c t zeros zeros zeros).symm)]
    iexact H3

/-! ## The run -/

set_option backward.isDefEq.respectTransparency.types false in
/-- From any memory with zero semaphore counters every weakly fair execution of the program terminates without a fault;
    each streamed array ends as the write-backs leave it and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- info: 'Cert.KernelIdeal.Fma.run_main' depends on axioms: [propext, Classical.choice, Quot.sound] -/
#guard_msgs in #print axioms run_main

end Cert.KernelIdeal.Fma

end
-- ==== Proof.FmaValue.lean ====
/-
  What the tiled multiply-add leaves in the result array.

  Write `X`, `B`, `S` for the three streamed arrays as the region finds them: the data, the per-measurement intercept
  weights and the per-measurement slope weights, each 64 × 522272. Point `t` of the grid writes back columns
  `8192 t … 8192 t + 8191` of the result — for `t = 63` only the 6176 columns below 522272 — and what it writes there is
  `X · S + B` on those columns, because the tile it computed is the multiply-add of the three fetched tiles and each fetched
  tile holds its array's columns there. Column `q` lies in the block of point `q / 8192`, so the 64 blocks cover the
  array and the result ends holding `X · S + B` everywhere.
-/
import proofs.«421988_j64080912056938_2_alg».proof.Proof.FmaFrameIdeal
import Idealize.ShloMosaic.Lib.Pipeline.Value

set_option maxRecDepth 16384

noncomputable section

namespace Cert.KernelIdeal.FmaValue

open Cert.KernelIdeal Cert.KernelIdeal.Gen Cert.KernelIdeal.Fma
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The data array, the intercept-weight array and the slope-weight array as the region finds them. -/
abbrev X (c : Dev nD) : S64x522272.Idx → Elt F .f32 := V m c main_arg0
abbrev B (c : Dev nD) : S64x522272.Idx → Elt F .f32 := V m c main_v16
abbrev S (c : Dev nD) : S64x522272.Idx → Elt F .f32 := V m c main_v17

/-- The whole-array multiply-add `X · S + B`. -/
def whole (c : Dev nD) : S64x522272.Idx → Elt F .f32 := addf (mulf (X m c) (S m c)) (B m c)

/-- What point `t` writes back is the block of `X · S + B` its write-back covers. -/
theorem flushed_eq (c : Dev nD) (t : Fin cfg0.N) :
    (dats m 0 c).flushed 3 t = ((cfg0.win 3).blk t).view.read (Elt F) (whole m c) := by
  show (cfg0.win 3).cut (cfg0.grid.coords t) ((dats m 0 c).after 3 t) = _
  rw [after_o]; unfold xTile bTile sTile
  rw [cut_fma]
  rfl

/-- The blocks of the result's window, in closed form over the grid: all 64 rows; columns from `8192 t`, 8192 of them but
    for the last block's 6176. -/
theorem blk_facts : ∀ t : Fin cfg0.N,
    win0_3.index t 0 * win0_3.size 0 = 0 ∧ win0_3.xsize (grid0.coords t) 0 = 64
    ∧ win0_3.index t 1 * win0_3.size 1 = 8192 * t.val ∧ win0_3.xsize (grid0.coords t) 1 = min 8192 (522272 - 8192 * t.val) :=
  (by decide +kernel : ∀ t : Fin grid0.N, _)

/-- An index of the result array lies in point `t`'s block iff its column does. -/
theorem mem_blk (t : Fin cfg0.N) (i : S64x522272.Idx) :
    i ∈ ((cfg0.win 3).blk t).view.set ↔ 8192 * t.val ≤ (i 1 : Nat) ∧ (i 1 : Nat) < 8192 * t.val + min 8192 (522272 - 8192 * t.val) := by
  show i ∈ ((View.whole main_v18).slice (win0_3.rect t)).set ↔ _
  rw [View.set_slice_whole, Rect.mem_set_unit]
  obtain ⟨e0, x0, e1, x1⟩ := blk_facts t
  have h0 : (i 0 : Nat) < 64 := (i 0).isLt
  refine ⟨fun h => ?_, fun h a => ?_⟩
  · have := h 1
    change win0_3.index t 1 * win0_3.size 1 ≤ (i 1 : Nat) ∧ (i 1 : Nat) < win0_3.index t 1 * win0_3.size 1 + win0_3.xsize (grid0.coords t) 1 at this
    rw [e1, x1] at this; exact this
  · match a with
    | ⟨0, _⟩ =>
      change win0_3.index t 0 * win0_3.size 0 ≤ (i 0 : Nat) ∧ (i 0 : Nat) < win0_3.index t 0 * win0_3.size 0 + win0_3.xsize (grid0.coords t) 0
      rw [e0, x0]; omega
    | ⟨1, _⟩ =>
      change win0_3.index t 1 * win0_3.size 1 ≤ (i 1 : Nat) ∧ (i 1 : Nat) < win0_3.index t 1 * win0_3.size 1 + win0_3.xsize (grid0.coords t) 1
      rw [e1, x1]; exact h

/-- Every index of the result array is in the block of the point its column falls to. -/
theorem cover (i : S64x522272.Idx) : ∃ t : Fin cfg0.N, (cfg0.win 3).flush t = true ∧ i ∈ ((cfg0.win 3).blk t).view.set := by
  have h1 : (i 1 : Nat) < 522272 := (i 1).isLt
  refine ⟨⟨(i 1 : Nat) / 8192, by show _ < 64; omega⟩, flush0_3 _, ?_⟩
  rw [mem_blk]
  show 8192 * ((i 1 : Nat) / 8192) ≤ (i 1 : Nat) ∧ (i 1 : Nat) < 8192 * ((i 1 : Nat) / 8192) + min 8192 (522272 - 8192 * ((i 1 : Nat) / 8192))
  omega

/-- After the run the result array holds `X · S + B`. -/
theorem final (c : Dev nD) : (dats m 0 c).arrAt 3 cfg0.N = whole m c :=
  (dats m 0 c).arrAt_eq_of_cover 3 (whole m c) (fun t _ => flushed_eq m c t) cover

end Cert.KernelIdeal.FmaValue

end
-- ==== Proof.Take.lean ====
/-
  The guarded take, and when its guard is idle.

  The kernel's program expands a per-subject weight table `w` (64 × 8192) to per-measurement weights with a take along
  the subject axis by the segment ids: an id `v` below zero is first wrapped to `v + 8192`; the table is then gathered at
  the wrapped ids (a gather clamps its start indices, so it is defined at every id); and a lane whose wrapped id is
  not within `0 … 8191` is replaced by a fill word. The guard is a one-bit mask: per measurement, the `and` over a
  length-one axis of `0 ≤ id` and `id ≤ 8191`, laid along the 64 rows.

  When every id `v` has `0 ≤ v < 8192` (signed), nothing wraps, both comparisons hold at every measurement, the mask is
  one everywhere, and the guarded take IS the gather: the fill word is never selected.
-/
import proofs.«421988_j64080912056938_2_alg».proof.Proof.Gen.KernelIdeal
import Idealize.ShloMosaic.Lib.ValueIdx

noncomputable section

namespace Cert.KernelIdeal.Take

open Cert.KernelIdeal Idealize.ShloMosaic Idealize.ShloMosaic.ValueIdx
open Cert.KernelIdeal.Facts₀ Cert.KernelIdeal.Facts

variable {F : FTy → Type} [FloatOps F]

/-! ## The host-side terms -/

/-- A per-subject weight table: `sampler · exp(ranef)`, kept for the subjects with more than `k` measurements and zeroed
    for the others (the 0/1 mask of `lengths > k` laid along the rows). -/
def weight (k : BitVec 32) (sampler ranef : FVec F S64x8192 .f32) (len : IVec S8192 32) : FVec F S64x8192 .f32 :=
  mulf (mulf sampler (Host.exp ranef))
    (broadcastInDim S64x8192 ![0, 1] bcast_S1x8192_S64x8192_0_1
      (broadcastInDim S1x8192 ![1] bcast_S8192_S1x8192_1
        (uitofp .f32 (cmpi .sgt len (broadcastInDim S8192 ![] bcast_S_S8192 (constantI S_ 32 k))))))

/-- The segment ids with the negative ones wrapped by the axis' extent, as the column of start indices the gather takes. -/
def wrapped (seg : IVec S522272 32) : IVec S522272x1 32 :=
  broadcastInDim S522272x1 ![0] bcast_S522272_S522272x1_0
    (select (cmpi .slt seg (broadcastInDim S522272 ![] bcast_S_S522272 (constantI S_ 32 0#32)))
      (addi seg (broadcastInDim S522272 ![] bcast_S_S522272 (constantI S_ 32 8192#32))) seg)

/-- The guard: per measurement whether its start index is within `0 … 8191`, laid along the 64 rows. -/
def inRange (idx : IVec S522272x1 32) : IVec S64x522272 1 :=
  broadcastInDim S64x522272 ![1] bcast_S522272_S64x522272_1
    (Host.reduce IntOp.andi
      (andi (cmpi .sge idx (broadcastInDim S522272x1 ![] bcast_S_S522272x1 (constantI S_ 32 0#32)))
        (cmpi .sle idx (broadcastInDim S522272x1 ![0, 1] bcast_S1x1_S522272x1_0_1
          (broadcastInDim S1x1 ![1] bcast_S1_S1x1_1 (constantI S1 32 8191#32)))))
      (constantI S_ 1 1#1) reducesTo_S522272x1_S522272_d1 h_S_)

/-- The table gathered at the wrapped ids: row `r`, measurement `q` reads the table's row `r` at the id of `q`. -/
def gathered (w : FVec F S64x8192 .f32) (seg : IVec S522272 32) : FVec F S64x522272 .f32 :=
  Host.gather gather_S64x8192_S522272x1_S64x522272_0_1_n_n_1_1_641 w (wrapped seg)

/-- The guarded take: the gather where the guard holds, the fill word elsewhere. -/
def take (w : FVec F S64x8192 .f32) (seg : IVec S522272 32) : FVec F S64x522272 .f32 :=
  select (inRange (wrapped seg)) (gathered w seg)
    (broadcastInDim S64x522272 ![] bcast_S_S64x522272 (constant S_ .f32 0x7FC00000#32))

/-! ## An `and`-reduction of ones -/

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- Reducing a vector of ones by `and`, from one, gives one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ j, init j = 1#1) (j : t.Idx) :
    Host.reduce IntOp.andi x init h hu j = 1#1 := by
  unfold Host.reduce
  rw [hi]
  exact foldl_andi_ones (fun n => x (s.rowMajor.symm n)) (fun n => hx _) _

/-! ## One id -/

/-- A signed word `v` with `0 ≤ v` and `v < 8192` is not negative and is at most 8191. -/
theorem word_bounds (v : BitVec 32) (h0 : IntOp.cmpi .sge v 0#32 = 1#1) (h1 : IntOp.cmpi .slt v 8192#32 = 1#1) :
    IntOp.cmpi .slt v 0#32 = 0#1 ∧ IntOp.cmpi .sle v 8191#32 = 1#1 := by
  have e0 : (0#32 : BitVec 32).toInt = 0 := by decide
  have e1 : (8192#32 : BitVec 32).toInt = 8192 := by decide
  have e2 : (8191#32 : BitVec 32).toInt = 8191 := by decide
  have b1 : ∀ b : Bool, BitVec.ofBool b = 1#1 ↔ b = true := fun b => by cases b <;> decide
  have b0 : ∀ b : Bool, BitVec.ofBool b = 0#1 ↔ b = false := fun b => by cases b <;> decide
  unfold IntOp.cmpi at h0 h1 ⊢
  simp only [BitVec.sle, BitVec.slt, e0, e1, e2, b1, b0, decide_eq_true_eq, decide_eq_false_iff_not] at h0 h1 ⊢
  omega

/-! ## The guard under the bounds -/

/-- The start index of a measurement is its (wrapped) id. -/
theorem wrapped_apply (seg : IVec S522272 32) (p : S522272x1.Idx) :
    ∃ k : S522272.Idx, wrapped seg p = Scalar.select (IntOp.cmpi .slt (seg k) 0#32) (IntOp.addi (seg k) 8192#32) (seg k) :=
  ⟨_, rfl⟩

/-- With every id in range the guard is one at every lane. -/
theorem inRange_one (seg : IVec S522272 32)
    (hseg : ∀ k, IntOp.cmpi .sge (seg k) 0#32 = 1#1 ∧ IntOp.cmpi .slt (seg k) 8192#32 = 1#1) (i : S64x522272.Idx) :
    inRange (wrapped seg) i = 1#1 := by
  unfold inRange broadcastInDim
  refine reduce_andi_ones _ _ _ _ (fun p => ?_) (fun _ => rfl) _
  obtain ⟨k, hk⟩ := wrapped_apply seg p
  obtain ⟨hn, hle⟩ := word_bounds (seg k) (hseg k).1 (hseg k).2
  have hw : wrapped seg p = seg k := by rw [hk, hn]; rfl
  show IntOp.andi (IntOp.cmpi .sge (wrapped seg p) 0#32) (IntOp.cmpi .sle (wrapped seg p) 8191#32) = 1#1
  rw [hw, (hseg k).1, hle]; decide

/-- With every id in range the guarded take is the gather. -/
theorem take_eq_gathered (w : FVec F S64x8192 .f32) (seg : IVec S522272 32)
    (hseg : ∀ k, IntOp.cmpi .sge (seg k) 0#32 = 1#1 ∧ IntOp.cmpi .slt (seg k) 8192#32 = 1#1) :
    take w seg = gathered w seg := by
  funext i
  unfold take
  rw [select_apply, inRange_one seg hseg i]
  rfl

end Cert.KernelIdeal.Take

end
-- ==== Proof.HostArrays.lean ====
/-
  The two weight arrays the region streams, as terms of the program's arguments.

  Before the region the host computes the per-subject tables `sampler · exp(ranef) · [lengths > k]` (k = 2 for the
  intercepts, k = 5 for the slopes) and expands each to the 522272 measurements by the guarded take at the segment
  ids. Reading the host operations back in order gives each streamed array as exactly that term of the launch contents (the
  typed references of the two calls carry their contents along an equation of buffer types that is the identity).
-/
import proofs.«421988_j64080912056938_2_alg».proof.Proof.Gen.KernelIdeal.Frame
import proofs.«421988_j64080912056938_2_alg».proof.Proof.Take
import Idealize.ShloMosaic.Lib.StableHlo.Run

set_option maxRecDepth 16384

noncomputable section

namespace Cert.KernelIdeal.HostArrays

open Cert.KernelIdeal Cert.KernelIdeal.Gen Cert.KernelIdeal.Take
open Idealize.ShloMosaic Idealize.ShloMosaic.TcCoe Idealize.SL.Sem Idealize.ShloMosaic.StableHlo

variable {F : FTy → Type} [FloatOps F]
variable (m : (ℓ : Loc nD τ sig) → Buf (Elt F) ℓ)

/-- The intercept weights per subject, and the slope weights per subject, of the launch contents. -/
abbrev wInter (c : Dev nD) : FVec F S64x8192 .f32 :=
  weight 2#32 (m ((c.tc : Thread nD τ).loc main_arg3)) (m ((c.tc : Thread nD τ).loc main_arg1)) (m ((c.tc : Thread nD τ).loc main_arg6))
abbrev wSlope (c : Dev nD) : FVec F S64x8192 .f32 :=
  weight 5#32 (m ((c.tc : Thread nD τ).loc main_arg4)) (m ((c.tc : Thread nD τ).loc main_arg2)) (m ((c.tc : Thread nD τ).loc main_arg6))

set_option maxHeartbeats 4000000 in
/-- The intercept-weight array the region finds is the guarded take of the intercept table at the segment ids. -/
theorem inter_eq (c : Dev nD) :
    (V m c main_v16 : S64x522272.Idx → Elt F .f32) = take (wInter m c) (m ((c.tc : Thread nD τ).loc main_arg5)) := by
  suffices h : ∀ Z : S64x522272.Idx → Elt F .f32,
      take (wInter m c) (m ((c.tc : Thread nD τ).loc main_arg5)) = Z → (V m c main_v16 : S64x522272.Idx → Elt F .f32) = Z from h _ rfl
  intro Z hZ
  dsimp only [V]
  simp only [hostOps0, hostOps0_1, hostOps0_2, List.flatten_cons, List.flatten_nil, List.append_nil, List.cons_append, List.nil_append]
  after_results_simp
  simp only [TRef.toBuf, TRef.ofBuf, cast_eq]
  exact hZ

set_option maxHeartbeats 4000000 in
/-- The slope-weight array the region finds is the guarded take of the slope table at the segment ids. -/
theorem slope_eq (c : Dev nD) :
    (V m c main_v17 : S64x522272.Idx → Elt F .f32) = take (wSlope m c) (m ((c.tc : Thread nD τ).loc main_arg5)) := by
  suffices h : ∀ Z : S64x522272.Idx → Elt F .f32,
      take (wSlope m c) (m ((c.tc : Thread nD τ).loc main_arg5)) = Z → (V m c main_v17 : S64x522272.Idx → Elt F .f32) = Z from h _ rfl
  intro Z hZ
  dsimp only [V]
  simp only [hostOps0, hostOps0_1, hostOps0_2, List.flatten_cons, List.flatten_nil, List.append_nil, List.cons_append, List.nil_append]
  after_results_simp
  simp only [TRef.toBuf, TRef.ofBuf, cast_eq]
  exact hZ

end Cert.KernelIdeal.HostArrays

end
-- ==== Proof.SegRange.lean ====
/-
  What the precondition says of the segment ids.

  The precondition is a conjunction of seven `all`s, each a reduction by `and` of a vector of one-bit truth values
  to a single bit: five that the float inputs are finite, and two that every segment id `v` satisfies `0 ≤ v` and
  `v < 8192` as signed 32-bit words — the ids index an axis of extent 8192. An `and` is one only if both operands are,
  and an `and`-reduction that came out one met only ones: so each id passes both comparisons.
-/
import proofs.«421988_j64080912056938_2_alg».proof.Pre_finite_inputs
import proofs.«421988_j64080912056938_2_alg».proof.Proof.Gen.Pre_finite_inputs
import Idealize.ShloMosaic.Lib.ReduceAll

noncomputable section

namespace Cert.SegRange

open Idealize.ShloMosaic Cert.Pre_finite_inputs

/-- A rank-0 shape has one index. -/
instance : Subsingleton S_.Idx := ⟨fun _ _ => funext fun d => d.elim0⟩

/-- Under the precondition every segment id is at least 0 and below 8192, read as signed words. -/
theorem of_pre {F : FTy → Type} [FloatOps F] (a0 : FVec F S64x522272 .f32) (a1 a2 a3 a4 : FVec F S64x8192 .f32)
    (seg : IVec S522272 32) (len : IVec S8192 32)
    (h : fn (F := F) a0 a1 a2 a3 a4 seg len = fun _ => 1#1) (k : S522272.Idx) :
    IntOp.cmpi .sge (seg k) 0#32 = 1#1 ∧ IntOp.cmpi .slt (seg k) 8192#32 = 1#1 := by
  have h0 := congrFun h (fun d => d.elim0)
  unfold fn fn_part1 at h0
  dsimp only at h0
  obtain ⟨h1, hlt⟩ := IntOp.andi_eq_one.1 h0
  obtain ⟨-, hge⟩ := IntOp.andi_eq_one.1 h1
  exact ⟨Host.reduce_andi_all _ _ _ _ _ hge k, Host.reduce_andi_all _ _ _ _ _ hlt k⟩

end Cert.SegRange

end
-- ==== Proof.KernelRun.lean ====
/-
  The idealized kernel's run with its result named, and the result under the precondition.

  The run ends with the result array at `X · S + B`, where `X` is the data as launched (no host operation writes it) and
  `S`, `B` are the guarded takes of the slope and intercept tables at the segment ids. Under the precondition every id
  lies in `0 … 8191`, the guard never fires, and the result is `x · gather(wSlope) + gather(wInter)` — the expression the
  reference evaluates on the host.
-/
import proofs.«421988_j64080912056938_2_alg».proof.Proof.FmaValue
import proofs.«421988_j64080912056938_2_alg».proof.Proof.HostArrays
import proofs.«421988_j64080912056938_2_alg».proof.Proof.SegRange
import proofs.«421988_j64080912056938_2_alg».proof.Defs

set_option maxRecDepth 16384

noncomputable section

namespace Cert.KernelIdeal.KernelRun

open Cert.KernelIdeal Cert.KernelIdeal.Gen Cert.KernelIdeal.Fma Cert.KernelIdeal.FmaValue Cert.KernelIdeal.Take
open Cert.KernelIdeal.HostArrays
open Idealize.ShloMosaic Idealize.ShloMosaic.TcCoe Idealize.SL.Sem

variable {F : FTy → Type} [FloatOps F]
variable (m : (ℓ : Loc nD τ sig) → Buf (Elt F) ℓ) (ρ : Dev nD → PrngReg)

/-- Every weakly fair execution of the program terminates without a fault, the result array at `X · S + B` and the seven
    arguments as launched: the streamed data by the pipeline's account of an input array, the six others because neither
    the host operations nor the region write them. -/
theorem run_value : θ_run defs (onTc (τ := τ) (main (F := F))) ⟨m, fun _ => 0, ρ⟩ (fun r => ∀ c : Dev nD,
      r.2.mem ((c.tc : Thread nD τ).loc main_v18) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

/-- What the reference evaluates, over the kernel program's launch contents: the data times the slope table gathered at the
    ids, plus the intercept table gathered at the ids. -/
def unguarded (c : Dev nD) : S64x522272.Idx → Elt F .f32 :=
  addf (mulf (m ((c.tc : Thread nD τ).loc main_arg0)) (gathered (wSlope m c) (m ((c.tc : Thread nD τ).loc main_arg5))))
    (gathered (wInter m c) (m ((c.tc : Thread nD τ).loc main_arg5)))

/-- With every segment id in `0 … 8191` the kernel's result is the unguarded expression. -/
theorem whole_eq (c : Dev nD)
    (hseg : ∀ k, IntOp.cmpi .sge (m ((c.tc : Thread nD τ).loc main_arg5) k) 0#32 = 1#1
      ∧ IntOp.cmpi .slt (m ((c.tc : Thread nD τ).loc main_arg5) k) 8192#32 = 1#1) :
    whole m c = unguarded m c := by
  unfold whole unguarded
  rw [show X m c = m ((c.tc : Thread nD τ).loc main_arg0) from V_main_arg0 m c,
    show S m c = take (wSlope m c) (m ((c.tc : Thread nD τ).loc main_arg5)) from slope_eq m c,
    show B m c = take (wInter m c) (m ((c.tc : Thread nD τ).loc main_arg5)) from inter_eq m c,
    take_eq_gathered _ _ hseg, take_eq_gathered _ _ hseg]

end Cert.KernelIdeal.KernelRun

end
-- ==== Proof.lean ====
/-
  A ragged random-effects layer, tiled: the kernel against its jnp reference, over the extended reals.

  Both programs take measurements `x` (64 biomarkers × 522272 measurements), four per-subject parameter tables
  (64 × 8192), the segment id of each measurement and the number of measurements of each subject. Both form, on the host
  and by the same operations, the per-subject weights `w_inter = sampler_inter · exp(ranef_inter) · [lengths > 2]` and
  `w_slope = sampler_slope · exp(ranef_slope) · [lengths > 5]`, and both return, per biomarker `r` and measurement `q`,

      x[r, q] · w_slope[r, id q] + w_inter[r, id q].

  The reference gathers the two tables at the ids and multiplies and adds on the host. The kernel's program expands the
  tables with a GUARDED take (an id outside `0 … 8191` yields a fill word instead of a table entry) and then runs one
  pallas_call that streams the three 64 × 522272 arrays through (64, 8192) tiles and computes `x · s + b` per tile.

  Where an id is out of range the two differ — the reference's gather clamps the id, the kernel's take yields the fill word
  — and there the reference indexes its tables out of range. The statement therefore carries, beside the finiteness of the
  float inputs, that every segment id lies in `0 … 8191`. Under it the guard never fires and the two results are one
  expression; no law of arithmetic is used, and finiteness plays no part.

  The frames: the kernel's program (at the word level and idealized alike) terminates, faults nowhere and leaves its seven
  arguments unchanged — the 64th tile overhangs the arrays by 2016 lanes, which the pipeline's transfers cut and the body
  computes through harmlessly; the reference is a straight line of host operations.
-/
import proofs.«421988_j64080912056938_2_alg».proof.Defs
import proofs.«421988_j64080912056938_2_alg».proof.Proof.Gen.Kernel
import proofs.«421988_j64080912056938_2_alg».proof.Proof.Gen.KernelIdeal
import proofs.«421988_j64080912056938_2_alg».proof.Proof.Gen.ReferenceIdeal
import proofs.«421988_j64080912056938_2_alg».proof.Proof.Gen.Pre_finite_inputs
import proofs.«421988_j64080912056938_2_alg».proof.Proof.Gen.ReferenceIdeal.Run
import proofs.«421988_j64080912056938_2_alg».proof.Proof.FmaFrameBits
import proofs.«421988_j64080912056938_2_alg».proof.Proof.FmaFrameIdeal
import proofs.«421988_j64080912056938_2_alg».proof.Proof.KernelRun

noncomputable section

namespace Cert.Proof

open Idealize.ShloMosaic Idealize.SL.Sem

/-- The word-level kernel program runs to the end and keeps its arguments: the tiled pipeline's run, read at the arguments. -/
theorem frame_kernel : Cert.frame_Kernel := fun m ρ _ =>
  Cert.Kernel.Gen.frame_of m ρ (Cert.Kernel.Fma.dats m) (Cert.Kernel.Fma.A_eq m) (Cert.Kernel.Fma.run_main (F := Bits) m ρ)

/-- The idealized kernel program likewise. -/
theorem frame_kernelIdeal : Cert.frame_KernelIdeal := fun m ρ _ =>
  Cert.KernelIdeal.Gen.frame_of m ρ (Cert.KernelIdeal.Fma.dats m) (Cert.KernelIdeal.Fma.A_eq m) (Cert.KernelIdeal.Fma.run_main (F := Ideal) m ρ)

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with one result: the kernel's is `x · S + B` with `S`, `B` the
    guarded takes, which under the precondition's id bounds are the plain gathers the reference multiplies and adds. -/
theorem algebraic : Cert.algebraic_KernelIdeal_ReferenceIdeal := by
  intro m ρ m' ρ' hpre hagree
  refine ⟨fun c => Cert.KernelIdeal.FmaValue.whole m c, Cert.KernelIdeal.KernelRun.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  show _ = Cert.KernelIdeal.FmaValue.whole m c
  rw [Cert.KernelIdeal.KernelRun.whole_eq m c (fun k => Cert.SegRange.of_pre _ _ _ _ _ _ _ (hpre c) k)]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
